-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1700000 : Shape := ⟨1, ![1700000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S1700000 32) (main_arg2 : IVec S1700000 32) (main_arg3 : FVec F S128x64 .f32) (main_arg4 : FVec F S64 .f32) (main_arg5 : FVec F S64x16 .f32) (main_arg6 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x128 : Shape := ⟨2, ![100000, 128]⟩
abbrev S1700000 : Shape := ⟨1, ![1700000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 79
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1700000, .i32⟩
  | .hbm, ⟨2, _⟩ => ⟨S1700000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1700000, .f32⟩
  | .hbm, ⟨9, _⟩ => ⟨S_, .f32⟩
  | .hbm, ⟨10, _⟩ => ⟨S100000, .f32⟩
  | .hbm, ⟨11, _⟩ => ⟨S1700000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S100000x64, .f32⟩
  | .hbm, ⟨61, _⟩ => ⟨S100000x16, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x16, .f32⟩
  | .hbm, ⟨71, _⟩ => ⟨S1700000x1, .f32⟩
  | .hbm, ⟨72, _⟩ => ⟨S1700000x16, .f32⟩
  | .hbm, ⟨73, _⟩ => ⟨S1700000x16, .f32⟩
  | .hbm, ⟨74, _⟩ => ⟨S_, .f32⟩
  | .hbm, ⟨75, _⟩ => ⟨S100000x16, .f32⟩
  | .hbm, ⟨76, _⟩ => ⟨S1700000x1, .i32⟩
  | .hbm, ⟨77, _⟩ => ⟨S100000x16, .f32⟩
  | .hbm, ⟨78, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S16, .f32⟩
  | .local _ .vmem, ⟨18, _⟩ => ⟨S5000x16, .f32⟩
  | .local _ .vmem, ⟨19, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  shapeCasts_S5000x16_S5000x16 : S5000x16.ShapeCasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16.size a ≤ S16.size a
  hwx3_1 : ∀ i : grid3.Coords, EltTy.bits .f32 = 32 ∨ (Rect.block (s := S16) S16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S1700000 : Shape := ⟨1, ![1700000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1700000, .i32⟩
  | .hbm, ⟨2, _⟩ => ⟨S1700000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1700000, .f32⟩
  | .hbm, ⟨9, _⟩ => ⟨S_, .f32⟩
  | .hbm, ⟨10, _⟩ => ⟨S100000, .f32⟩
  | .hbm, ⟨11, _⟩ => ⟨S1700000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x16, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x16, .f32⟩
  | .hbm, ⟨76, _⟩ => ⟨S1700000x1, .f32⟩
  | .hbm, ⟨77, _⟩ => ⟨S1700000x16, .f32⟩
  | .hbm, ⟨78, _⟩ => ⟨S1700000x16, .f32⟩
  | .hbm, ⟨79, _⟩ => ⟨S_, .f32⟩
  | .hbm, ⟨80, _⟩ => ⟨S100000x16, .f32⟩
  | .hbm, ⟨81, _⟩ => ⟨S1700000x1, .i32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_cst : Ref sig .tc := ⟨.hbm, 63, rfl⟩
abbrev main_call1_v0 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.HostChain.lean ====
/-
  The message-passing glue that the kernel's program and the reference share, named once.

  Both programs compute a two-layer graph convolution over `E = 1,700,000` edges `(src e, dst e)` on `N = 100,000`
  nodes. With `deg v = #{e | dst e = v}`, `dis v = if deg v > 0 then (max (deg v) 1)^(-1/2) else 0` and the edge weight
  `w e = dis (src e) * dis (dst e)`, a layer sends a node table `h` to

      agg h v = Σ_{e : dst e = v} h (src e) * w e        (a gather, a product, a scatter-add),

  an endpoint being read as jnp reads an index: a negative one counted from the end. Everything here is the program
  text itself (the same operations in the same order, at any float family `F`); nothing is evaluated. The two programs
  differ only in how they form `x · W` and `· + b` around these.
-/
import proofs.«106587_j32942399160959_1_alg».proof.KernelIdeal
import proofs.«106587_j32942399160959_1_alg».proof.Proof.Gen.KernelIdeal

noncomputable section

namespace Cert.KernelIdeal.HostChain

open Cert.KernelIdeal Cert.KernelIdeal.Facts₀ Cert.KernelIdeal.Facts Idealize.ShloMosaic

variable {F : FTy → Type} [FloatOps F]

/-- An array of edge endpoints. -/
abbrev Endpoints (F : FTy → Type) : Type := (⟨S1700000, .i32⟩ : BufTy).Contents (Elt F)

/-- An endpoint array as one column of row indices, a negative endpoint counted from the end (`a + 100000`). -/
def wrapIdx (a : Endpoints F) : (⟨S1700000x1, .i32⟩ : BufTy).Contents (Elt F) :=
  broadcastInDim S1700000x1 ![0] bcast_S1700000_S1700000x1_0
    (select (cmpi .slt a (broadcastInDim S1700000 ![] bcast_S_S1700000 (constantI S_ 32 0#32)))
      (addi a (broadcastInDim S1700000 ![] bcast_S_S1700000 (constantI S_ 32 100000#32))) a)

/-- The destinations as the one-column segment numbers of a scatter. -/
def segIdx (dst : Endpoints F) : (⟨S1700000x1, .i32⟩ : BufTy).Contents (Elt F) :=
  broadcastInDim S1700000x1 ![0] bcast_S1700000_S1700000x1_0 dst

/-- `deg v`: the number of edges into `v`, a scatter-add of ones. -/
def degree (dst : Endpoints F) : FVec F S100000 .f32 :=
  Host.scatterAdd scatter_S100000_S1700000x1_S1700000_n_0_0_1
    (broadcastInDim S100000 ![] bcast_S_S100000 (constant S_ .f32 0x00000000#32)) (segIdx dst)
    (broadcastInDim S1700000 ![] bcast_S_S1700000 (constant S_ .f32 0x3F800000#32))

/-- `dis v = if deg v > 0 then rsqrt (max (deg v) 1) else 0`. -/
def invSqrtDeg (dst : Endpoints F) : FVec F S100000 .f32 :=
  select (cmpf (F := F) .ogt (degree dst) (broadcastInDim S100000 ![] bcast_S_S100000 (constant S_ .f32 0x00000000#32)))
    (Host.rsqrt (maximumf (degree dst) (broadcastInDim S100000 ![] bcast_S_S100000 (constant S_ .f32 0x3F800000#32))))
    (broadcastInDim S100000 ![] bcast_S_S100000 (id (constant S_ .f32 0x00000000#32)))

/-- The edge weights `w e = dis (src e) * dis (dst e)`. -/
def edgeNorm (src dst : Endpoints F) : FVec F S1700000 .f32 :=
  mulf (Host.gather gather_S100000_S1700000x1_S1700000_n_0_n_n_0_1_1 (invSqrtDeg dst) (wrapIdx src))
    (Host.gather gather_S100000_S1700000x1_S1700000_n_0_n_n_0_1_1 (invSqrtDeg dst) (wrapIdx dst))

/-- One aggregation over 64 features: gather the sources' rows, weight each edge, scatter-add into the destinations. -/
def agg64 (h : FVec F S100000x64 .f32) (src dst : Endpoints F) : FVec F S100000x64 .f32 :=
  Host.scatterAdd scatter_S100000x64_S1700000x1_S1700000x64_1_0_0_1
    (broadcastInDim S100000x64 ![] bcast_S_S100000x64 (constant S_ .f32 0x00000000#32)) (segIdx dst)
    (mulf (Host.gather gather_S100000x64_S1700000x1_S1700000x64_1_0_n_n_0_1_164 h (wrapIdx src))
      (broadcastInDim S1700000x64 ![0, 1] bcast_S1700000x1_S1700000x64_0_1
        (broadcastInDim S1700000x1 ![0] bcast_S1700000_S1700000x1_0 (edgeNorm src dst))))

/-- The same aggregation over 16 features. -/
def agg16 (h : FVec F S100000x16 .f32) (src dst : Endpoints F) : FVec F S100000x16 .f32 :=
  Host.scatterAdd scatter_S100000x16_S1700000x1_S1700000x16_1_0_0_1
    (broadcastInDim S100000x16 ![] bcast_S_S100000x16 (constant S_ .f32 0x00000000#32)) (segIdx dst)
    (mulf (Host.gather gather_S100000x16_S1700000x1_S1700000x16_1_0_n_n_0_1_116 h (wrapIdx src))
      (broadcastInDim S1700000x16 ![0, 1] bcast_S1700000x1_S1700000x16_0_1
        (broadcastInDim S1700000x1 ![0] bcast_S1700000_S1700000x1_0 (edgeNorm src dst))))

/-- A 64-vector laid as a row and repeated down 100000 rows. -/
def biasRows64 (b : FVec F S64 .f32) : FVec F S100000x64 .f32 :=
  broadcastInDim S100000x64 ![0, 1] (by decide : S1x64.BroadcastsInDim S100000x64 ![0, 1])
    (broadcastInDim S1x64 ![1] (by decide : S64.BroadcastsInDim S1x64 ![1]) b)

/-- A 16-vector laid as a row and repeated down 100000 rows. -/
def biasRows16 (b : FVec F S16 .f32) : FVec F S100000x16 .f32 :=
  broadcastInDim S100000x16 ![0, 1] (by decide : S1x16.BroadcastsInDim S100000x16 ![0, 1])
    (broadcastInDim S1x16 ![1] (by decide : S16.BroadcastsInDim S1x16 ![1]) b)

/-- Layer 1 after aggregation: add the bias to every row, clamp below at zero. -/
def biasRelu64 (a : FVec F S100000x64 .f32) (b : FVec F S64 .f32) : FVec F S100000x64 .f32 :=
  maximumf (addf a (biasRows64 b)) (broadcastInDim S100000x64 ![] bcast_S_S100000x64 (constant S_ .f32 0x00000000#32))

/-- Layer 2 after aggregation: add the bias to every row. -/
def bias16 (a : FVec F S100000x16 .f32) (b : FVec F S16 .f32) : FVec F S100000x16 .f32 :=
  addf a (biasRows16 b)

/-- The two matrix products, as plain `M×K` by `K×N` products on the host. -/
def dense1 (x : FVec F S100000x128 .f32) (w : FVec F S128x64 .f32) : FVec F S100000x64 .f32 :=
  Host.dotGeneral (DotDims.plain 100000 128 64) none x w
def dense2 (h : FVec F S100000x64 .f32) (w : FVec F S64x16 .f32) : FVec F S100000x16 .f32 :=
  Host.dotGeneral (DotDims.plain 100000 64 16) none h w

/-- The whole network: `out = agg (relu (agg (x·W1) + b1) · W2) + b2`. -/
def network (x : FVec F S100000x128 .f32) (src dst : Endpoints F) (w1 : FVec F S128x64 .f32) (b1 : FVec F S64 .f32)
    (w2 : FVec F S64x16 .f32) (b2 : FVec F S16 .f32) : FVec F S100000x16 .f32 :=
  bias16 (agg16 (dense2 (biasRelu64 (agg64 (dense1 x w1) src dst) b1) w2) src dst) b2

end Cert.KernelIdeal.HostChain

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«106587_j32942399160959_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.RegionDense1.lean ====
/-
  Region 0 (the first matrix product): what its output array holds when the pipeline has run.
-/
import proofs.«106587_j32942399160959_1_alg».proof.Proof.Gen.KernelIdeal.Frame
import proofs.«106587_j32942399160959_1_alg».proof.Proof.HostChain
import proofs.«106587_j32942399160959_1_alg».proof.Proof.LibPlainDotAny
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

open scoped BigOperators

/-- A block's one store starts at the block's origin. -/
theorem origin_dense1 : (![0, 0] : Fin 2 → Nat) = fun _ => 0 := funext fun a => by fin_cases a <;> rfl

/-- The product of a block of rows with the weights, at a block index: the sum over the shared axis. -/
theorem blockProduct_dense1_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact PlainDot.matmul_zero_apply_any 5000 128 64 none _ _ (ix2 p q)

/-- The whole-array product at an array index: the same sum over the shared axis. -/
theorem dense1_apply (x : FVec Ideal S100000x128 .f32) (w : FVec Ideal S128x64 .f32) (r : Fin 100000) (q : Fin 64) :
    HostChain.dense1 (F := Ideal) x w (ix2 r q) = ∑ k : Fin 128, x (ix2 r k) * w (ix2 k q) := by
  unfold HostChain.dense1
  exact PlainDot.dotGeneral_apply_any 100000 128 64 none .single x w (ix2 r q)

/-- The index maps over the twenty points: the rows' window and the output's sit at block row `t`, block column 0; the
    weights' window is the whole array at every point. -/
theorem blockIndex_dense1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of rows times the weights is the matching rows of the whole product: if the block holds rows
    `5000 T … 5000 T + 4999` of `x` and the weights' block is all of `w`, the block product at `(p, q)` is the whole product at
    `(5000 T + p, q)`: both are the sum over `k` of `x (5000 T + p, k) * w (k, q)`. -/
theorem blockProduct_eq_dense1 (x : FVec Ideal S100000x128 .f32) (w : FVec Ideal S128x64 .f32)
    (x0 : Vec Ideal S5000x128 .f32) (x1 : Vec Ideal S128x64 .f32) (T : Nat) (hT : T < 20)
    (h0 : ∀ (p : Fin 5000) (k : Fin 128), x0 (ix2 p k) = x (ix2 (⟨T * 5000 + p.val, by omega⟩ : Fin 100000) k))
    (h1 : ∀ (k : Fin 128) (q : Fin 64), x1 (ix2 k q) = w (ix2 k q)) (j : S5000x64.Idx) :
    k0_pay1 (F := Ideal) x0 x1 j
      = HostChain.dense1 (F := Ideal) x w (ix2 (⟨T * 5000 + (j 0).val, by have := idx2_lt0 j; omega⟩ : Fin 100000) (j 1)) := by
  obtain ⟨p, q, rfl⟩ : ∃ (p : Fin 5000) (q : Fin 64), j = ix2 p q := ⟨j 0, j 1, eq_ix2 j⟩
  show k0_pay1 (F := Ideal) x0 x1 (ix2 p q) = HostChain.dense1 (F := Ideal) x w (ix2 (⟨T * 5000 + p.val, by omega⟩ : Fin 100000) q)
  rw [blockProduct_dense1_apply, dense1_apply]
  refine Finset.sum_congr rfl fun k _ => ?_
  rw [h0, h1]

/-- What point `t` writes back is block `t` of the whole product of the two argument arrays. -/
theorem flushed_dense1 (c : Dev nD) (t : Fin cfg0.N) :
    (dat0 (F := Ideal) V c).flushed 2 t = ((cfg0.win 2).blk t).view.read (Elt Ideal) (HostChain.dense1 (F := Ideal) (V c main_arg0) (V c main_arg3)) := by
  show (cfg0.win 2).cut (grid0.coords t) ((dat0 V c).after 2 t) = _
  rw [after0_2]
  unfold out0_2
  rw [View.canon_unit_zero origin_dense1]
  simp only [View.ld_unit_zero (S := S5000x128) origin_dense1, View.ld_unit_zero (S := S128x64) origin_dense1]
  obtain ⟨e00, e01, e10, e11, e20, e21⟩ := blockIndex_dense1 t
  have ht : t.val < 20 := t.isLt
  funext j
  show k0_pay1 (F := Ideal) (iblk0 V c 0 t) (iblk0 V c 1 t) j
    = HostChain.dense1 (F := Ideal) (V c main_arg0) (V c main_arg3) (((cfg0.win 2).blk t).view.emb j)
  refine (blockProduct_eq_dense1 (V c main_arg0) (V c main_arg3) (iblk0 V c 0 t) (iblk0 V c 1 t) t.val ht ?_ ?_ j).trans ?_
  · -- the rows' block: row p of block t is row 5000 t + p of the array, the columns in place
    intro p k
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · -- the weights' block is the whole array
    intro k q
    show V c main_arg3 (((cfg0.win 1).blk t).view.emb (ix2 k q)) = V c main_arg3 _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · -- the output's block: its index (p, q) sits at (5000 t + p, q) of the array
    refine congrArg _ (funext fun a => Fin.ext ?_)
    match a with
    | ⟨0, _⟩ => show t.val * 5000 + (j 0).val = win0_2.index t (0 : Fin 2) * 5000 + 1 * (j 0).val; omega
    | ⟨1, _⟩ => show (j 1).val = win0_2.index t (1 : Fin 2) * 64 + 1 * (j 1).val; omega

/-- An index of the array is in point `t`'s block iff each coordinate is in the block's range on its axis. -/
theorem mem_block_dense1 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v25).slice (win0_2.rect t)).set ↔ _
  rw [View.set_slice_whole, Rect.mem_set_unit]
  exact Iff.rfl

/-- The twenty blocks of 5000 rows tile the 100000 rows: row `r` lies in the block of point `r / 5000`, every column in it. -/
theorem cover_dense1 (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hlt : (i 0).val / 5000 < 20 := by omega
  obtain ⟨-, -, -, -, e20, e21⟩ := blockIndex_dense1 ⟨(i 0).val / 5000, hlt⟩
  have e20' : win0_2.index ⟨(i 0).val / 5000, hlt⟩ (0 : Fin 2) = (i 0).val / 5000 := e20
  refine ⟨⟨(i 0).val / 5000, hlt⟩, flush0_2 _, ?_⟩
  rw [mem_block_dense1]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    omega

/-- The output array of region 0 after its twenty grid points. -/
theorem dense1_value (c : Dev nD) :
    ((dat0 (F := Ideal) V c).arrAt 2 cfg0.N : FVec Ideal S100000x64 .f32) = HostChain.dense1 (F := Ideal) (V c main_arg0) (V c main_arg3) := by
  exact (dat0 (F := Ideal) V c).arrAt_eq_of_cover 2 _ (fun t _ => flushed_dense1 V c t) cover_dense1

end Cert.KernelIdeal.RegionValue

end
-- ==== Proof.RegionBiasRelu.lean ====
/-
  Region 1 (bias and clamp of layer 1): what its output array holds when the pipeline has run.

  The region's grid has twenty points. At point `t` the body reads rows `5000 t … 5000 t + 4999` of the data array and
  the whole bias vector, and writes `max (a (r, q) + b q) 0` to the same rows of the output array. The twenty row blocks
  tile the 100000 rows, so the output array ends as that one function of the two input arrays, entry by entry.
-/
import proofs.«106587_j32942399160959_1_alg».proof.Proof.Gen.KernelIdeal.Frame
import proofs.«106587_j32942399160959_1_alg».proof.Proof.HostChain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

namespace BiasRelu64

/-! ## One entry of the payload and of the whole-array form -/

/-- The zero offsets of a whole-buffer access of a rank-2 buffer, as a function of the axis. -/
theorem zero_off2 : (![0, 0] : Fin 2 → Nat) = fun _ => 0 := funext fun a => by fin_cases a <;> rfl
/-- The zero offset of a whole-buffer access of a vector, as a function of the axis. -/
theorem zero_off1 : (![0] : Fin 1 → Nat) = fun _ => 0 := funext fun a => by fin_cases a; rfl

/-- The body's payload at row `p`, column `q` of its block: the data entry plus the bias entry of column `q` (the bias
    recast as one row and repeated down the 5000 rows), clamped below at zero. -/
theorem pay_apply (b : Vec Ideal S64 .f32) (a : Vec Ideal S5000x64 .f32) (p : Fin 5000) (q : Fin 64) :
    k1_pay1 (F := Ideal) b a (ix2 p q) = max (a (ix2 p q) + b (ix1 q)) (Ideal.ofBits .f32 0x00000000#32) := by
  unfold k1_pay1
  rw [maximumf_apply, addf_apply, shapeCast_self, broadcast_apply, broadcastTo_1b_ab_apply, shapeCast_a_1a_apply]
  rfl

/-- The bias laid as a row and repeated down the 100000 rows reads, at row `r`, column `q`, the bias entry of column `q`. -/
theorem biasRows_apply (b : FVec Ideal S64 .f32) (r : Fin 100000) (q : Fin 64) :
    HostChain.biasRows64 (F := Ideal) b (ix2 r q) = b (ix1 q) := by
  unfold HostChain.biasRows64
  refine (broadcastInDim_apply _ _ _ (ix2 r q) (ix2 (0 : Fin 1) q) fun ax => ?_).trans
    (broadcastInDim_apply _ _ b (ix2 (0 : Fin 1) q) (ix1 q) fun ax => ?_)
  · match ax with
    | ⟨0, _⟩ => rfl
    | ⟨1, _⟩ => rfl
  · match ax with
    | ⟨0, _⟩ => rfl

/-- The whole-array form at row `r`, column `q`: the data entry plus the bias entry of column `q`, clamped below at zero
    (the zero is the same word, repeated from a scalar). -/
theorem host_apply (a : FVec Ideal S100000x64 .f32) (b : FVec Ideal S64 .f32) (r : Fin 100000) (q : Fin 64) :
    HostChain.biasRelu64 (F := Ideal) a b (ix2 r q) = max (a (ix2 r q) + b (ix1 q)) (Ideal.ofBits .f32 0x00000000#32) := by
  unfold HostChain.biasRelu64
  rw [maximumf_apply, addf_apply, biasRows_apply,
    broadcastInDim_apply _ _ (constant (F := Ideal) S_ .f32 0x00000000#32) (ix2 r q) ix0 fun ax => ax.elim0,
    constant_apply]

/-- One entry: when the block's entry at `(p, q)` is the array's entry at `(r, q)` and the bias block agrees with the
    bias vector at `q`, the payload at `(p, q)` is the whole-array form at `(r, q)`. -/
theorem point_eq (A : FVec Ideal S100000x64 .f32) (B : FVec Ideal S64 .f32) (a : Vec Ideal S5000x64 .f32) (b : Vec Ideal S64 .f32)
    (p : Fin 5000) (q : Fin 64) (r : Fin 100000) (ha : a (ix2 p q) = A (ix2 r q)) (hb : b (ix1 q) = B (ix1 q)) :
    k1_pay1 (F := Ideal) b a (ix2 p q) = HostChain.biasRelu64 (F := Ideal) A B (ix2 r q) := by
  rw [pay_apply, host_apply, ha, hb]

/-! ## From the twenty blocks to the array -/

/-- The index maps over the twenty grid points: the data window and the output window are at block row `t`, block
    column 0; the bias window is always at block 0. -/
theorem block_index : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What grid point `t` writes back is block `t` of the whole-array form of the two input arrays. -/
theorem flushed_eq (c : Dev nD) (t : Fin cfg1.N) :
    (dat1 (F := Ideal) V c).flushed 2 t
      = ((cfg1.win 2).blk t).view.read (Elt Ideal) (HostChain.biasRelu64 (F := Ideal) (V c main_v38) (V c main_arg4)) := by
  show (cfg1.win 2).cut (grid1.coords t) ((dat1 V c).after 2 t) = _
  rw [after1_2]
  unfold out1_2
  rw [View.canon_unit_zero zero_off2]
  simp only [View.ld_unit_zero (S := S5000x64) zero_off2, View.ld_unit_zero (S := S64) zero_off1]
  obtain ⟨e00, e01, e10, e20, e21⟩ := block_index t
  have ht : t.val < 20 := t.isLt
  funext j
  have hj0 : (j 0).val < 5000 := (j 0).isLt
  have hj1 : (j 1).val < 64 := (j 1).isLt
  have hr : t.val * 5000 + (j 0).val < 100000 := by omega
  -- the entry's place in the block, and the place in the array the block's rectangle gives it: row 5000 t + p, column q
  have e1 : (cfg1.win 2).xinj (grid1.coords t) j = ix2 (⟨(j 0).val, hj0⟩ : Fin 5000) (⟨(j 1).val, hj1⟩ : Fin 64) :=
    funext fun a => match a with | ⟨0, _⟩ => rfl | ⟨1, _⟩ => rfl
  have e2 : ((cfg1.win 2).blk t).view.emb j = ix2 (⟨t.val * 5000 + (j 0).val, hr⟩ : Fin 100000) (⟨(j 1).val, hj1⟩ : Fin 64) := by
    funext a; apply Fin.ext
    match a with
    | ⟨0, _⟩ => show win1_2.index t (0 : Fin 2) * 5000 + 1 * (j 0).val = t.val * 5000 + (j 0).val; omega
    | ⟨1, _⟩ => show win1_2.index t (1 : Fin 2) * 64 + 1 * (j 1).val = (j 1).val; omega
  show k1_pay1 (iblk1 V c 1 t) (iblk1 V c 0 t) ((cfg1.win 2).xinj (grid1.coords t) j)
    = HostChain.biasRelu64 (F := Ideal) (V c main_v38) (V c main_arg4) (((cfg1.win 2).blk t).view.emb j)
  rw [e1, e2]
  refine point_eq _ _ _ _ _ _ _ ?_ ?_
  · -- the data block at (p, q) is the data array at (5000 t + p, q)
    show V c main_v38 (((cfg1.win 0).blk t).view.emb (ix2 (⟨(j 0).val, hj0⟩ : Fin 5000) (⟨(j 1).val, hj1⟩ : Fin 64))) = _
    refine congrArg _ (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 64 + 1 * (j 1).val = (j 1).val; omega
  · -- the bias block is the whole bias vector
    show V c main_arg4 (((cfg1.win 1).blk t).view.emb (ix1 (⟨(j 1).val, hj1⟩ : Fin 64))) = _
    refine congrArg _ (funext fun a => Fin.ext ?_)
    match a with
    | ⟨0, _⟩ => show win1_1.index t (0 : Fin 1) * 64 + 1 * (j 1).val = (j 1).val; omega

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v39).slice (win1_2.rect t)).set ↔ _
  rw [View.set_slice_whole, Rect.mem_set_unit]
  exact Iff.rfl

/-- Every index of the output array is in the block of the point `r / 5000`, `r` its row: the twenty blocks of 5000 rows
    tile the 100000 rows. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hk : (i 0).val / 5000 < 20 := by omega
  refine ⟨⟨(i 0).val / 5000, hk⟩, flush1_2 _, ?_⟩
  obtain ⟨-, -, -, e20, e21⟩ := block_index ⟨(i 0).val / 5000, hk⟩
  rw [mem_blk]
  intro a
  match a with
  | ⟨0, _⟩ =>
    show win1_2.index ⟨(i 0).val / 5000, hk⟩ (0 : Fin 2) * 5000 ≤ (i 0).val
      ∧ (i 0).val < win1_2.index ⟨(i 0).val / 5000, hk⟩ (0 : Fin 2) * 5000 + 5000
    rw [e20]
    show (i 0).val / 5000 * 5000 ≤ (i 0).val ∧ (i 0).val < (i 0).val / 5000 * 5000 + 5000
    omega
  | ⟨1, _⟩ =>
    show win1_2.index ⟨(i 0).val / 5000, hk⟩ (1 : Fin 2) * 64 ≤ (i 1).val
      ∧ (i 1).val < win1_2.index ⟨(i 0).val / 5000, hk⟩ (1 : Fin 2) * 64 + 64
    rw [e21]
    omega

end BiasRelu64

/-- The output array of region 1 after its twenty grid points. -/
theorem biasRelu64_value (c : Dev nD) :
    ((dat1 (F := Ideal) V c).arrAt 2 cfg1.N : FVec Ideal S100000x64 .f32) = HostChain.biasRelu64 (F := Ideal) (V c main_v38) (V c main_arg4) := by
  exact (dat1 (F := Ideal) V c).arrAt_eq_of_cover 2 (HostChain.biasRelu64 (F := Ideal) (V c main_v38) (V c main_arg4))
    (fun t _ => BiasRelu64.flushed_eq V c t) BiasRelu64.covered

end Cert.KernelIdeal.RegionValue

end
-- ==== Proof.RegionDense2.lean ====
/-
  Region 2 (the second matrix product): what its output array holds when the pipeline has run.
-/
import proofs.«106587_j32942399160959_1_alg».proof.Proof.Gen.KernelIdeal.Frame
import proofs.«106587_j32942399160959_1_alg».proof.Proof.HostChain
import proofs.«106587_j32942399160959_1_alg».proof.Proof.LibPlainDotAny
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

open scoped BigOperators

/-- A block's one store starts at the block's origin. -/
theorem origin_dense2 : (![0, 0] : Fin 2 → Nat) = fun _ => 0 := funext fun a => by fin_cases a <;> rfl

/-- The product of a block of rows with the weights, at a block index: the sum over the shared axis. Recasting the block
    of rows to its own shape leaves it as it is. -/
theorem blockProduct_dense2_apply (x0 : Vec Ideal S5000x64 .f32) (x1 : Vec Ideal S64x16 .f32) (p : Fin 5000) (q : Fin 16) :
    k2_pay1 (F := Ideal) x0 x1 (ix2 p q) = ∑ k : Fin 64, x0 (ix2 p k) * x1 (ix2 k q) := by
  unfold k2_pay1
  rw [shapeCast_self]
  exact PlainDot.matmul_zero_apply_any 5000 64 16 none _ _ (ix2 p q)

/-- The whole-array product at an array index: the same sum over the shared axis. -/
theorem dense2_apply (h : FVec Ideal S100000x64 .f32) (w : FVec Ideal S64x16 .f32) (r : Fin 100000) (q : Fin 16) :
    HostChain.dense2 (F := Ideal) h w (ix2 r q) = ∑ k : Fin 64, h (ix2 r k) * w (ix2 k q) := by
  unfold HostChain.dense2
  exact PlainDot.dotGeneral_apply_any 100000 64 16 none .single h w (ix2 r q)

/-- The index maps over the twenty points: the rows' window and the output's sit at block row `t`, block column 0; the
    weights' window is the whole array at every point. -/
theorem blockIndex_dense2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of rows times the weights is the matching rows of the whole product: if the block holds rows
    `5000 T … 5000 T + 4999` of `h` and the weights' block is all of `w`, the block product at `(p, q)` is the whole product at
    `(5000 T + p, q)`: both are the sum over `k` of `h (5000 T + p, k) * w (k, q)`. -/
theorem blockProduct_eq_dense2 (h : FVec Ideal S100000x64 .f32) (w : FVec Ideal S64x16 .f32)
    (x0 : Vec Ideal S5000x64 .f32) (x1 : Vec Ideal S64x16 .f32) (T : Nat) (hT : T < 20)
    (h0 : ∀ (p : Fin 5000) (k : Fin 64), x0 (ix2 p k) = h (ix2 (⟨T * 5000 + p.val, by omega⟩ : Fin 100000) k))
    (h1 : ∀ (k : Fin 64) (q : Fin 16), x1 (ix2 k q) = w (ix2 k q)) (j : S5000x16.Idx) :
    k2_pay1 (F := Ideal) x0 x1 j
      = HostChain.dense2 (F := Ideal) h w (ix2 (⟨T * 5000 + (j 0).val, by have := idx2_lt0 j; omega⟩ : Fin 100000) (j 1)) := by
  obtain ⟨p, q, rfl⟩ : ∃ (p : Fin 5000) (q : Fin 16), j = ix2 p q := ⟨j 0, j 1, eq_ix2 j⟩
  show k2_pay1 (F := Ideal) x0 x1 (ix2 p q) = HostChain.dense2 (F := Ideal) h w (ix2 (⟨T * 5000 + p.val, by omega⟩ : Fin 100000) q)
  rw [blockProduct_dense2_apply, dense2_apply]
  refine Finset.sum_congr rfl fun k _ => ?_
  rw [h0, h1]

/-- What point `t` writes back is block `t` of the whole product of the two argument arrays. -/
theorem flushed_dense2 (c : Dev nD) (t : Fin cfg2.N) :
    (dat2 (F := Ideal) V c).flushed 2 t = ((cfg2.win 2).blk t).view.read (Elt Ideal) (HostChain.dense2 (F := Ideal) (V c main_v39) (V c main_arg5)) := by
  show (cfg2.win 2).cut (grid2.coords t) ((dat2 V c).after 2 t) = _
  rw [after2_2]
  unfold out2_2
  rw [View.canon_unit_zero origin_dense2]
  simp only [View.ld_unit_zero (S := S5000x64) origin_dense2, View.ld_unit_zero (S := S64x16) origin_dense2]
  obtain ⟨e00, e01, e10, e11, e20, e21⟩ := blockIndex_dense2 t
  have ht : t.val < 20 := t.isLt
  funext j
  show k2_pay1 (F := Ideal) (iblk2 V c 0 t) (iblk2 V c 1 t) j
    = HostChain.dense2 (F := Ideal) (V c main_v39) (V c main_arg5) (((cfg2.win 2).blk t).view.emb j)
  refine (blockProduct_eq_dense2 (V c main_v39) (V c main_arg5) (iblk2 V c 0 t) (iblk2 V c 1 t) t.val ht ?_ ?_ j).trans ?_
  · -- the rows' block: row p of block t is row 5000 t + p of the array, the columns in place
    intro p k
    show V c main_v39 (((cfg2.win 0).blk t).view.emb (ix2 p k)) = V c main_v39 _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · -- the weights' block is the whole array
    intro k q
    show V c main_arg5 (((cfg2.win 1).blk t).view.emb (ix2 k q)) = V c main_arg5 _
    refine congrArg _ (funext fun a => Fin.ext ?_)
    match a with
    | ⟨0, _⟩ => show win2_1.index t (0 : Fin 2) * 64 + 1 * k.val = k.val; omega
    | ⟨1, _⟩ => show win2_1.index t (1 : Fin 2) * 16 + 1 * q.val = q.val; omega
  · -- the output's block: its index (p, q) sits at (5000 t + p, q) of the array
    refine congrArg _ (funext fun a => Fin.ext ?_)
    match a with
    | ⟨0, _⟩ => show t.val * 5000 + (j 0).val = win2_2.index t (0 : Fin 2) * 5000 + 1 * (j 0).val; omega
    | ⟨1, _⟩ => show (j 1).val = win2_2.index t (1 : Fin 2) * 16 + 1 * (j 1).val; omega

/-- An index of the array is in point `t`'s block iff each coordinate is in the block's range on its axis. -/
theorem mem_block_dense2 (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v40).slice (win2_2.rect t)).set ↔ _
  rw [View.set_slice_whole, Rect.mem_set_unit]
  exact Iff.rfl

/-- The twenty blocks of 5000 rows tile the 100000 rows: row `r` lies in the block of point `r / 5000`, every column in it. -/
theorem cover_dense2 (i : S100000x16.Idx) :
    ∃ t : Fin cfg2.N, (cfg2.win 2).flush t = true ∧ i ∈ ((cfg2.win 2).blk t).view.set := by
  have hi0 : (i 0).val < 100000 := idx2_lt0 i
  have hi1 : (i 1).val < 16 := idx2_lt1 i
  have hlt : (i 0).val / 5000 < 20 := by omega
  obtain ⟨-, -, -, -, e20, e21⟩ := blockIndex_dense2 ⟨(i 0).val / 5000, hlt⟩
  have e20' : win2_2.index ⟨(i 0).val / 5000, hlt⟩ (0 : Fin 2) = (i 0).val / 5000 := e20
  refine ⟨⟨(i 0).val / 5000, hlt⟩, flush2_2 _, ?_⟩
  rw [mem_block_dense2]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    omega
  | ⟨1, _⟩ =>
    show win2_2.index ⟨(i 0).val / 5000, hlt⟩ (1 : Fin 2) * 16 ≤ (i 1).val
      ∧ (i 1).val < win2_2.index ⟨(i 0).val / 5000, hlt⟩ (1 : Fin 2) * 16 + 16
    omega

/-- The output array of region 2 after its twenty grid points. -/
theorem dense2_value (c : Dev nD) :
    ((dat2 (F := Ideal) V c).arrAt 2 cfg2.N : FVec Ideal S100000x16 .f32) = HostChain.dense2 (F := Ideal) (V c main_v39) (V c main_arg5) := by
  exact (dat2 (F := Ideal) V c).arrAt_eq_of_cover 2 _ (fun t _ => flushed_dense2 V c t) cover_dense2

end Cert.KernelIdeal.RegionValue

end
-- ==== Proof.RegionBias.lean ====
/-
  Region 3 (bias of layer 2): what its output array holds when the pipeline has run.

  The region's grid has twenty points. At point `t` the body reads rows `5000 t … 5000 t + 4999` of the data array and
  the whole bias vector, and writes `a (r, q) + b q` to the same rows of the output array. The twenty row blocks tile the
  100000 rows, so the output array ends as that one function of the two input arrays, entry by entry.
-/
import proofs.«106587_j32942399160959_1_alg».proof.Proof.Gen.KernelIdeal.Frame
import proofs.«106587_j32942399160959_1_alg».proof.Proof.HostChain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

namespace Bias16

/-! ## One entry of the payload and of the whole-array form -/

/-- The zero offsets of a whole-buffer access of a rank-2 buffer, as a function of the axis. -/
theorem zero_off2 : (![0, 0] : Fin 2 → Nat) = fun _ => 0 := funext fun a => by fin_cases a <;> rfl
/-- The zero offset of a whole-buffer access of a vector, as a function of the axis. -/
theorem zero_off1 : (![0] : Fin 1 → Nat) = fun _ => 0 := funext fun a => by fin_cases a; rfl

/-- The body's payload at row `p`, column `q` of its block: the data entry plus the bias entry of column `q` (the bias
    recast as one row and repeated down the 5000 rows). -/
theorem pay_apply (b : Vec Ideal S16 .f32) (a : Vec Ideal S5000x16 .f32) (p : Fin 5000) (q : Fin 16) :
    k3_pay1 (F := Ideal) b a (ix2 p q) = a (ix2 p q) + b (ix1 q) := by
  unfold k3_pay1
  rw [addf_apply, shapeCast_self, broadcastTo_1b_ab_apply, shapeCast_a_1a_apply]

/-- The bias laid as a row and repeated down the 100000 rows reads, at row `r`, column `q`, the bias entry of column `q`. -/
theorem biasRows_apply (b : FVec Ideal S16 .f32) (r : Fin 100000) (q : Fin 16) :
    HostChain.biasRows16 (F := Ideal) b (ix2 r q) = b (ix1 q) := by
  unfold HostChain.biasRows16
  refine (broadcastInDim_apply _ _ _ (ix2 r q) (ix2 (0 : Fin 1) q) fun ax => ?_).trans
    (broadcastInDim_apply _ _ b (ix2 (0 : Fin 1) q) (ix1 q) fun ax => ?_)
  · match ax with
    | ⟨0, _⟩ => rfl
    | ⟨1, _⟩ => rfl
  · match ax with
    | ⟨0, _⟩ => rfl

/-- The whole-array form at row `r`, column `q`: the data entry plus the bias entry of column `q`. -/
theorem host_apply (a : FVec Ideal S100000x16 .f32) (b : FVec Ideal S16 .f32) (r : Fin 100000) (q : Fin 16) :
    HostChain.bias16 (F := Ideal) a b (ix2 r q) = a (ix2 r q) + b (ix1 q) := by
  unfold HostChain.bias16
  rw [addf_apply, biasRows_apply]

/-- One entry: when the block's entry at `(p, q)` is the array's entry at `(r, q)` and the bias block agrees with the
    bias vector at `q`, the payload at `(p, q)` is the whole-array form at `(r, q)`. -/
theorem point_eq (A : FVec Ideal S100000x16 .f32) (B : FVec Ideal S16 .f32) (a : Vec Ideal S5000x16 .f32) (b : Vec Ideal S16 .f32)
    (p : Fin 5000) (q : Fin 16) (r : Fin 100000) (ha : a (ix2 p q) = A (ix2 r q)) (hb : b (ix1 q) = B (ix1 q)) :
    k3_pay1 (F := Ideal) b a (ix2 p q) = HostChain.bias16 (F := Ideal) A B (ix2 r q) := by
  rw [pay_apply, host_apply, ha, hb]

/-! ## From the twenty blocks to the array -/

/-- The index maps over the twenty grid points: the data window and the output window are at block row `t`, block
    column 0; the bias window is always at block 0. -/
theorem block_index : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What grid point `t` writes back is block `t` of the whole-array form of the two input arrays. -/
theorem flushed_eq (c : Dev nD) (t : Fin cfg3.N) :
    (dat3 (F := Ideal) V c).flushed 2 t
      = ((cfg3.win 2).blk t).view.read (Elt Ideal) (HostChain.bias16 (F := Ideal) (V c main_v53) (V c main_arg6)) := by
  show (cfg3.win 2).cut (grid3.coords t) ((dat3 V c).after 2 t) = _
  rw [after3_2]
  unfold out3_2
  rw [View.canon_unit_zero zero_off2]
  simp only [View.ld_unit_zero (S := S5000x16) zero_off2, View.ld_unit_zero (S := S16) zero_off1]
  obtain ⟨e00, e01, e10, e20, e21⟩ := block_index t
  have ht : t.val < 20 := t.isLt
  funext j
  have hj0 : (j 0).val < 5000 := (j 0).isLt
  have hj1 : (j 1).val < 16 := (j 1).isLt
  have hr : t.val * 5000 + (j 0).val < 100000 := by omega
  -- the entry's place in the block, and the place in the array the block's rectangle gives it: row 5000 t + p, column q
  have e1 : (cfg3.win 2).xinj (grid3.coords t) j = ix2 (⟨(j 0).val, hj0⟩ : Fin 5000) (⟨(j 1).val, hj1⟩ : Fin 16) :=
    funext fun a => match a with | ⟨0, _⟩ => rfl | ⟨1, _⟩ => rfl
  have e2 : ((cfg3.win 2).blk t).view.emb j = ix2 (⟨t.val * 5000 + (j 0).val, hr⟩ : Fin 100000) (⟨(j 1).val, hj1⟩ : Fin 16) := by
    funext a; apply Fin.ext
    match a with
    | ⟨0, _⟩ => show win3_2.index t (0 : Fin 2) * 5000 + 1 * (j 0).val = t.val * 5000 + (j 0).val; omega
    | ⟨1, _⟩ => show win3_2.index t (1 : Fin 2) * 16 + 1 * (j 1).val = (j 1).val; omega
  show k3_pay1 (iblk3 V c 1 t) (iblk3 V c 0 t) ((cfg3.win 2).xinj (grid3.coords t) j)
    = HostChain.bias16 (F := Ideal) (V c main_v53) (V c main_arg6) (((cfg3.win 2).blk t).view.emb j)
  rw [e1, e2]
  refine point_eq _ _ _ _ _ _ _ ?_ ?_
  · -- the data block at (p, q) is the data array at (5000 t + p, q)
    show V c main_v53 (((cfg3.win 0).blk t).view.emb (ix2 (⟨(j 0).val, hj0⟩ : Fin 5000) (⟨(j 1).val, hj1⟩ : Fin 16))) = _
    refine congrArg _ (funext fun a => Fin.ext ?_)
    match a with
    | ⟨0, _⟩ => show win3_0.index t (0 : Fin 2) * 5000 + 1 * (j 0).val = t.val * 5000 + (j 0).val; omega
    | ⟨1, _⟩ => show win3_0.index t (1 : Fin 2) * 16 + 1 * (j 1).val = (j 1).val; omega
  · -- the bias block is the whole bias vector
    show V c main_arg6 (((cfg3.win 1).blk t).view.emb (ix1 (⟨(j 1).val, hj1⟩ : Fin 16))) = _
    refine congrArg _ (funext fun a => Fin.ext ?_)
    match a with
    | ⟨0, _⟩ => show win3_1.index t (0 : Fin 1) * 16 + 1 * (j 1).val = (j 1).val; omega

/-- An index of the output array is in point `t`'s block iff each coordinate is in the block's range on its axis. -/
theorem mem_blk (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v54).slice (win3_2.rect t)).set ↔ _
  rw [View.set_slice_whole, Rect.mem_set_unit]
  exact Iff.rfl

/-- Every index of the output array is in the block of the point `r / 5000`, `r` its row: the twenty blocks of 5000 rows
    tile the 100000 rows. -/
theorem covered (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hk : (i 0).val / 5000 < 20 := by omega
  refine ⟨⟨(i 0).val / 5000, hk⟩, flush3_2 _, ?_⟩
  obtain ⟨-, -, -, e20, e21⟩ := block_index ⟨(i 0).val / 5000, hk⟩
  rw [mem_blk]
  intro a
  match a with
  | ⟨0, _⟩ =>
    show win3_2.index ⟨(i 0).val / 5000, hk⟩ (0 : Fin 2) * 5000 ≤ (i 0).val
      ∧ (i 0).val < win3_2.index ⟨(i 0).val / 5000, hk⟩ (0 : Fin 2) * 5000 + 5000
    rw [e20]
    show (i 0).val / 5000 * 5000 ≤ (i 0).val ∧ (i 0).val < (i 0).val / 5000 * 5000 + 5000
    omega
  | ⟨1, _⟩ =>
    show win3_2.index ⟨(i 0).val / 5000, hk⟩ (1 : Fin 2) * 16 ≤ (i 1).val
      ∧ (i 1).val < win3_2.index ⟨(i 0).val / 5000, hk⟩ (1 : Fin 2) * 16 + 16
    rw [e21]
    omega

end Bias16

/-- The output array of region 3 after its twenty grid points. -/
theorem bias16_value (c : Dev nD) :
    ((dat3 (F := Ideal) V c).arrAt 2 cfg3.N : FVec Ideal S100000x16 .f32) = HostChain.bias16 (F := Ideal) (V c main_v53) (V c main_arg6) := by
  exact (dat3 (F := Ideal) V c).arrAt_eq_of_cover 2 (HostChain.bias16 (F := Ideal) (V c main_v53) (V c main_arg6))
    (fun t _ => Bias16.flushed_eq V c t) Bias16.covered

end Cert.KernelIdeal.RegionValue

end
-- ==== Proof.Chain.lean ====
/-
  The kernel's program, boundary by boundary: what the result array holds after the last region.

  @main is three host stretches, region 0 (x·W1), a host stretch (the first aggregation), regions 1 and 2 (bias and
  clamp; ·W2), a host stretch (the second aggregation) and region 3 (bias). The generated frame names the buffer
  contents at every boundary (`W0` … `W9`). Reading them back: an argument, and the edge weights once computed,
  are written by nothing later, so they hold at every boundary what they held before; a region's output array holds
  the whole-array function of its two inputs (`RegionValue`); a host stretch's result is its operations applied to
  what the boundary before held. Composed, the result is `HostChain.network` of the seven arguments.
-/
import proofs.«106587_j32942399160959_1_alg».proof.Proof.Gen.KernelIdeal.Frame
import proofs.«106587_j32942399160959_1_alg».proof.Proof.HostChain
import proofs.«106587_j32942399160959_1_alg».proof.Proof.RegionDense1
import proofs.«106587_j32942399160959_1_alg».proof.Proof.RegionBiasRelu
import proofs.«106587_j32942399160959_1_alg».proof.Proof.RegionDense2
import proofs.«106587_j32942399160959_1_alg».proof.Proof.RegionBias
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## What nothing writes holds what it held (any float family) -/

section Kept

variable {F : FTy → Type} [FloatOps F]
variable (m : (ℓ : Loc nD τ sig) → Buf (Elt F) ℓ) (ρ : Dev nD → PrngReg) (c : Dev nD)

/-- Closes "no operation of this stretch writes `b`" for a literal stretch and a literal reference `b`: each operation
    writes its one result buffer, and that is another reference than `b`. -/
local macro "not_written_by " ops:ident : tactic => `(tactic| (
  refine List.forall_iff_forall_mem.mp ?_
  simp only [$ops:ident, List.Forall, StableHlo.nullary_writes, StableHlo.unary_writes, StableHlo.binary_writes,
    StableHlo.ternary_writes, Finset.mem_singleton]
  repeat' apply And.intro
  all_goals exact StableHlo.devRef_ne_of_ne (by decide)))

/-- The contents at launch, by the argument's location. -/
abbrev atLaunch (b : Ref sig .tc) : Buf (Elt F) ((c.tc : Thread nD τ).loc b) := m ((c.tc : Thread nD τ).loc b)

/-- From the launch to region 0's entry: a reference none of the first three stretches writes. -/
theorem entry0_of_not_written (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = atLaunch m c b :=
  (StableHlo.after_of_forall_not_mem _ _ h2).trans <| (StableHlo.after_of_forall_not_mem _ _ h1).trans <|
    (StableHlo.after_of_forall_not_mem _ _ h0).trans rfl

/-! From region 0's entry on, boundary by boundary: a region changes only its own arrays, a stretch only what its
    operations write. Each lemma asks only for what the boundaries up to its own need. -/

theorem exit0_kept (b : Ref sig .tc) (r0 : ∀ w, Pipeline.arrRef spec0 w ≠ b) :
    W4 m ρ c (Proc.devRef .tc b) = W3 m ρ c (Proc.devRef .tc b) := W4_of_ne m ρ c b r0

theorem entry1_kept (b : Ref sig .tc) (r0 : ∀ w, Pipeline.arrRef spec0 w ≠ b)
    (h1 : ∀ op ∈ (hostOps1 : List (HloOp τ sig (Elt F))), Proc.devRef .tc b ∉ op.writes) :
    W5 m ρ c (Proc.devRef .tc b) = W3 m ρ c (Proc.devRef .tc b) :=
  (StableHlo.after_of_forall_not_mem _ _ h1).trans (exit0_kept m ρ c b r0)

theorem exit1_kept (b : Ref sig .tc) (r0 : ∀ w, Pipeline.arrRef spec0 w ≠ b)
    (h1 : ∀ op ∈ (hostOps1 : List (HloOp τ sig (Elt F))), Proc.devRef .tc b ∉ op.writes)
    (r1 : ∀ w, Pipeline.arrRef spec1 w ≠ b) :
    W6 m ρ c (Proc.devRef .tc b) = W3 m ρ c (Proc.devRef .tc b) :=
  (W6_of_ne m ρ c b r1).trans (entry1_kept m ρ c b r0 h1)

theorem exit2_kept (b : Ref sig .tc) (r0 : ∀ w, Pipeline.arrRef spec0 w ≠ b)
    (h1 : ∀ op ∈ (hostOps1 : List (HloOp τ sig (Elt F))), Proc.devRef .tc b ∉ op.writes)
    (r1 : ∀ w, Pipeline.arrRef spec1 w ≠ b) (r2 : ∀ w, Pipeline.arrRef spec2 w ≠ b) :
    W7 m ρ c (Proc.devRef .tc b) = W3 m ρ c (Proc.devRef .tc b) :=
  (W7_of_ne m ρ c b r2).trans (exit1_kept m ρ c b r0 h1 r1)

theorem entry3_kept (b : Ref sig .tc) (r0 : ∀ w, Pipeline.arrRef spec0 w ≠ b)
    (h1 : ∀ op ∈ (hostOps1 : List (HloOp τ sig (Elt F))), Proc.devRef .tc b ∉ op.writes)
    (r1 : ∀ w, Pipeline.arrRef spec1 w ≠ b) (r2 : ∀ w, Pipeline.arrRef spec2 w ≠ b)
    (h3 : ∀ op ∈ (hostOps3 : List (HloOp τ sig (Elt F))), Proc.devRef .tc b ∉ op.writes) :
    W8 m ρ c (Proc.devRef .tc b) = W3 m ρ c (Proc.devRef .tc b) :=
  (StableHlo.after_of_forall_not_mem _ _ h3).trans (exit2_kept m ρ c b r0 h1 r1 r2)

/-! ### The seven arguments at region 0's entry -/

/-- No host operation writes an argument: each argument at region 0's entry is its launch contents. -/
theorem entry0_arg {b : Ref sig .tc}
    (hb : b = main_arg0 ∨ b = main_arg1 ∨ b = main_arg2 ∨ b = main_arg3 ∨ b = main_arg4 ∨ b = main_arg5 ∨ b = main_arg6) :
    W3 m ρ c (Proc.devRef .tc b) = atLaunch m c b := by
  rcases hb with rfl | rfl | rfl | rfl | rfl | rfl | rfl <;>
    exact entry0_of_not_written m ρ c _ (by not_written_by hostOps0) (by not_written_by hostOps0_1)
      (by not_written_by hostOps0_2)

set_option maxHeartbeats 1000000 in
/-- The edge weights at region 0's entry: the first three stretches' operations applied to the two endpoint arrays. -/
theorem entry0_norm : W3 m ρ c (Proc.devRef .tc main_v24)
    = HostChain.edgeNorm (atLaunch m c main_arg1) (atLaunch m c main_arg2) := by
  dsimp only [W3, hostOps0_2]
  after_results_simp
  simp only [TRef.ofBuf, TRef.toBuf, cast_eq]
  rfl

/-! ### Where each is read later -/

/-- The sources, read by both aggregations. -/
theorem src_kept : W4 m ρ c (Proc.devRef .tc main_arg1) = atLaunch m c main_arg1
    ∧ W7 m ρ c (Proc.devRef .tc main_arg1) = atLaunch m c main_arg1 :=
  ⟨(exit0_kept m ρ c _ (by decide)).trans (entry0_arg m ρ c (by simp)),
   (exit2_kept m ρ c _ (by decide) (by not_written_by hostOps1) (by decide) (by decide)).trans (entry0_arg m ρ c (by simp))⟩

/-- The destinations, read by both aggregations. -/
theorem dst_kept : W4 m ρ c (Proc.devRef .tc main_arg2) = atLaunch m c main_arg2
    ∧ W7 m ρ c (Proc.devRef .tc main_arg2) = atLaunch m c main_arg2 :=
  ⟨(exit0_kept m ρ c _ (by decide)).trans (entry0_arg m ρ c (by simp)),
   (exit2_kept m ρ c _ (by decide) (by not_written_by hostOps1) (by decide) (by decide)).trans (entry0_arg m ρ c (by simp))⟩

/-- The edge weights, read by both aggregations. -/
theorem norm_kept : W4 m ρ c (Proc.devRef .tc main_v24) = HostChain.edgeNorm (atLaunch m c main_arg1) (atLaunch m c main_arg2)
    ∧ W7 m ρ c (Proc.devRef .tc main_v24) = HostChain.edgeNorm (atLaunch m c main_arg1) (atLaunch m c main_arg2) :=
  ⟨(exit0_kept m ρ c _ (by decide)).trans (entry0_norm m ρ c),
   (exit2_kept m ρ c _ (by decide) (by not_written_by hostOps1) (by decide) (by decide)).trans (entry0_norm m ρ c)⟩

/-- The first bias, read by region 1. -/
theorem bias1_kept : W5 m ρ c (Proc.devRef .tc main_arg4) = atLaunch m c main_arg4 :=
  (entry1_kept m ρ c _ (by decide) (by not_written_by hostOps1)).trans (entry0_arg m ρ c (by simp))

/-- The second weight matrix, read by region 2. -/
theorem weight2_kept : W6 m ρ c (Proc.devRef .tc main_arg5) = atLaunch m c main_arg5 :=
  (exit1_kept m ρ c _ (by decide) (by not_written_by hostOps1) (by decide)).trans (entry0_arg m ρ c (by simp))

/-- The second bias, read by region 3. -/
theorem bias2_kept : W8 m ρ c (Proc.devRef .tc main_arg6) = atLaunch m c main_arg6 :=
  (entry3_kept m ρ c _ (by decide) (by not_written_by hostOps1) (by decide) (by decide) (by not_written_by hostOps3)).trans
    (entry0_arg m ρ c (by simp))

end Kept

/-! ## The values, at the ideal instance -/

section Values

variable (m : (ℓ : Loc nD τ sig) → Buf (Elt Ideal) ℓ) (ρ : Dev nD → PrngReg) (c : Dev nD)

/-- `x · W1` of the launch contents. -/
abbrev pre1 : FVec Ideal S100000x64 .f32 := HostChain.dense1 (F := Ideal) (atLaunch m c main_arg0) (atLaunch m c main_arg3)
/-- Layer 1's output. -/
abbrev hidden : FVec Ideal S100000x64 .f32 :=
  HostChain.biasRelu64 (F := Ideal) (HostChain.agg64 (pre1 m c) (atLaunch m c main_arg1) (atLaunch m c main_arg2)) (atLaunch m c main_arg4)
/-- `h · W2`. -/
abbrev pre2 : FVec Ideal S100000x16 .f32 := HostChain.dense2 (F := Ideal) (hidden m c) (atLaunch m c main_arg5)

/-- After region 0: `x · W1`. -/
theorem exit0_value : W4 m ρ c (Proc.devRef .tc main_v25) = pre1 m c :=
  (W4_arr m ρ c 2).trans <| (RegionValue.dense1_value (V3 m ρ) c).trans <|
    congrArg₂ (HostChain.dense1 (F := Ideal)) (entry0_arg m ρ c (by simp)) (entry0_arg m ρ c (by simp))

/-- After the first aggregation. -/
theorem entry1_value : W5 m ρ c (Proc.devRef .tc main_v38)
    = HostChain.agg64 (F := Ideal) (pre1 m c) (atLaunch m c main_arg1) (atLaunch m c main_arg2) := by
  dsimp only [W5, hostOps1]
  after_results_simp
  rw [exit0_value, (src_kept m ρ c).1, (dst_kept m ρ c).1, (norm_kept m ρ c).1]
  rfl

/-- After region 1: the bias added and the clamp at zero. -/
theorem exit1_value : W6 m ρ c (Proc.devRef .tc main_v39) = hidden m c :=
  (W6_arr m ρ c 2).trans <| (RegionValue.biasRelu64_value (V5 m ρ) c).trans <|
    congrArg₂ (HostChain.biasRelu64 (F := Ideal)) (entry1_value m ρ c) (bias1_kept m ρ c)

/-- After region 2: `h · W2`. -/
theorem exit2_value : W7 m ρ c (Proc.devRef .tc main_v40) = pre2 m c :=
  (W7_arr m ρ c 2).trans <| (RegionValue.dense2_value (V6 m ρ) c).trans <|
    congrArg₂ (HostChain.dense2 (F := Ideal)) (exit1_value m ρ c) (weight2_kept m ρ c)

/-- After the second aggregation. -/
theorem entry3_value : W8 m ρ c (Proc.devRef .tc main_v53)
    = HostChain.agg16 (F := Ideal) (pre2 m c) (atLaunch m c main_arg1) (atLaunch m c main_arg2) := by
  dsimp only [W8, hostOps3]
  after_results_simp
  rw [exit2_value, (src_kept m ρ c).2, (dst_kept m ρ c).2, (norm_kept m ρ c).2]
  rfl

/-- THE RESULT: after region 3 the result array holds the network of the seven arguments. -/
theorem result_value : W9 m ρ c (Proc.devRef .tc main_v54)
    = HostChain.network (F := Ideal) (atLaunch m c main_arg0) (atLaunch m c main_arg1) (atLaunch m c main_arg2)
        (atLaunch m c main_arg3) (atLaunch m c main_arg4) (atLaunch m c main_arg5) (atLaunch m c main_arg6) :=
  (W9_arr m ρ c 2).trans <| (RegionValue.bias16_value (V8 m ρ) c).trans <|
    congrArg₂ (HostChain.bias16 (F := Ideal)) (entry3_value m ρ c) (bias2_kept m ρ c)

end Values

end Cert.KernelIdeal.Chain

end
-- ==== Proof.RefValue.lean ====
/-
  The reference side: the host program's result, read back from its run, is the network of `HostChain.lean` applied to
  the launch contents of its seven arguments. The run's composed term and `HostChain.network` are the same operations
  in the same order; only the names differ (each program prints its own copies of the shapes and dimension records).
-/
import proofs.«106587_j32942399160959_1_alg».proof.Proof.RefRun
import proofs.«106587_j32942399160959_1_alg».proof.Proof.HostChain

noncomputable section

namespace Cert.ReferenceIdeal.RefValue

open Cert.ReferenceIdeal Idealize.ShloMosaic Idealize.ShloMosaic.TcCoe Idealize.SL.Sem

variable {F : FTy → Type} [FloatOps F]

set_option maxRecDepth 16384 in
/-- The reference's result is the network of its arguments. -/
theorem result_eq (m : (ℓ : Loc nD τ sig) → Buf (Elt F) ℓ) (c : Dev nD) :
    Cert.ReferenceIdeal.Value.res_main_v59 m c
      = Cert.KernelIdeal.HostChain.network (F := F)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v59
  rfl

end Cert.ReferenceIdeal.RefValue

end
-- ==== Proof.lean ====
/-
  A two-layer graph convolution, `out = agg (relu (agg (x·W1) + b1) · W2) + b2`, where `agg h v = Σ_{e : dst e = v}
  h (src e) · dis (src e) · dis (dst e)` over 1,700,000 edges and `dis = deg^(-1/2)` (0 where the degree is 0).

  The kernel's program forms the two products `x·W1`, `h·W2` and the two bias steps in four pipelined regions of
  twenty blocks of 5000 rows each (the products on operands narrowed to bf16, which at the ideal instance is the
  identity), and everything between them — degrees, edge weights, gathers and scatter-adds — on the host, with the very
  operations the reference uses. So at the ideal instance both programs end with the SAME function of the seven
  arguments, `HostChain.network`:
    * the kernel's: the frame run with the result array named (KernelRun.lean), the boundaries read back one by one
      (Chain.lean) over each region's whole-array value (RegionDense1 / RegionBiasRelu / RegionDense2 / RegionBias.lean:
      a block product is the rows' sums over the shared axis, exactly the host product's; a bias row repeated down a
      block is the bias row repeated down the array);
    * the reference's: its run read back (RefRun.lean), whose composed term is that function, by unfolding (RefValue.lean).
  No law of arithmetic beyond "the same sum in the same order" is used, so the precondition (finite inputs) is never opened.
  The frames of the two kernel programs are the generated frame certificates; the reference's is its run with the result
  dropped; the idealization rewrote nothing, so `preserves` is trivial.
-/
import proofs.«106587_j32942399160959_1_alg».proof.Defs
import proofs.«106587_j32942399160959_1_alg».proof.Proof.Gen.Kernel
import proofs.«106587_j32942399160959_1_alg».proof.Proof.Gen.Kernel.Frame
import proofs.«106587_j32942399160959_1_alg».proof.Proof.Gen.KernelIdeal
import proofs.«106587_j32942399160959_1_alg».proof.Proof.Gen.KernelIdeal.Frame
import proofs.«106587_j32942399160959_1_alg».proof.Proof.Gen.ReferenceIdeal
import proofs.«106587_j32942399160959_1_alg».proof.Proof.Gen.Pre_finite_inputs
import proofs.«106587_j32942399160959_1_alg».proof.Proof.KernelRun
import proofs.«106587_j32942399160959_1_alg».proof.Proof.Chain
import proofs.«106587_j32942399160959_1_alg».proof.Proof.RefRun
import proofs.«106587_j32942399160959_1_alg».proof.Proof.RefValue

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the network of those arguments. -/
theorem algebraic : Cert.algebraic_KernelIdeal_ReferenceIdeal := by
  intro m ρ m' ρ' _ hagree
  refine ⟨fun c => Cert.KernelIdeal.HostChain.network (F := Ideal)
      (Cert.KernelIdeal.Chain.atLaunch m c Cert.KernelIdeal.main_arg0) (Cert.KernelIdeal.Chain.atLaunch m c Cert.KernelIdeal.main_arg1)
      (Cert.KernelIdeal.Chain.atLaunch m c Cert.KernelIdeal.main_arg2) (Cert.KernelIdeal.Chain.atLaunch m c Cert.KernelIdeal.main_arg3)
      (Cert.KernelIdeal.Chain.atLaunch m c Cert.KernelIdeal.main_arg4) (Cert.KernelIdeal.Chain.atLaunch m c Cert.KernelIdeal.main_arg5)
      (Cert.KernelIdeal.Chain.atLaunch m c Cert.KernelIdeal.main_arg6), ?_, ?_⟩
  · exact (θ_run Cert.KernelIdeal.defs _ _).mono
      (fun _ h c => ⟨(h c).1.trans (Cert.KernelIdeal.Chain.result_value m ρ c), (h c).2⟩)
      (Cert.KernelIdeal.Gen.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.RefValue.result_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
